-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S1000 : Shape := ⟨1, ![1000]⟩
abbrev S1000x1000 : Shape := ⟨2, ![1000, 1000]⟩
abbrev S_ : Shape := ⟨0, ![]⟩

class Facts : Prop where
  bcast_S_S1000 : S_.BroadcastsInDim S1000 (![] : Fin 0 → Fin S1000.rank)
  reducesTo_S1000_S_d0 : S1000.ReducesTo [0] S_
  h_S_ : 0 < S_.numel
  bcast_S_S1000x1000 : S_.BroadcastsInDim S1000x1000 (![] : Fin 0 → Fin S1000x1000.rank)
  reducesTo_S1000x1000_S_d0_1 : S1000x1000.ReducesTo [0, 1] S_
  bcast_S_S65536 : S_.BroadcastsInDim S65536 (![] : Fin 0 → Fin S65536.rank)
  reducesTo_S65536_S_d0 : S65536.ReducesTo [0] S_

variable [Facts]

def fn {F : FTy → Type} [FloatOps F] (main_arg0 : IVec S65536 32) (main_arg1 : FVec F S1000 .f32) (main_arg2 : FVec F S1000x1000 .f32) : IVec S_ 1 :=
  let main_v0 : FVec F S1000 .f32 := Host.absf main_arg1
  let main_cst : FVec F S_ .f32 := constant S_ .f32 0x7F800000#32
  let main_v1 : FVec F S1000 .f32 := broadcastInDim S1000 ![] bcast_S_S1000 main_cst
  let main_v2 : IVec S1000 1 := cmpf .olt main_v0 main_v1
  let main_c : IVec S_ 1 := constantI S_ 1 1#1
  let main_v3 : IVec S_ 1 := (fun x v => Host.reduce IntOp.andi x v reducesTo_S1000_S_d0 h_S_) main_v2 main_c
  let main_v4 : FVec F S1000x1000 .f32 := Host.absf main_arg2
  let main_cst_0 : FVec F S_ .f32 := constant S_ .f32 0x7F800000#32
  let main_v5 : FVec F S1000x1000 .f32 := broadcastInDim S1000x1000 ![] bcast_S_S1000x1000 main_cst_0
  let main_v6 : IVec S1000x1000 1 := cmpf .olt main_v4 main_v5
  let main_c_1 : IVec S_ 1 := constantI S_ 1 1#1
  let main_v7 : IVec S_ 1 := (fun x v => Host.reduce IntOp.andi x v reducesTo_S1000x1000_S_d0_1 h_S_) main_v6 main_c_1
  let main_v8 : IVec S_ 1 := andi main_v3 main_v7
  let main_c_2 : IVec S_ 32 := constantI S_ 32 0#32
  let main_v9 : IVec S65536 32 := broadcastInDim S65536 ![] bcast_S_S65536 main_c_2
  let main_v10 : IVec S65536 1 := cmpi .sge main_arg0 main_v9
  let main_c_3 : IVec S_ 32 := constantI S_ 32 1000#32
  let main_v11 : IVec S65536 32 := broadcastInDim S65536 ![] bcast_S_S65536 main_c_3
  let main_v12 : IVec S65536 1 := cmpi .slt main_arg0 main_v11
  let main_v13 : IVec S65536 1 := andi main_v10 main_v12
  let main_c_4 : IVec S_ 1 := constantI S_ 1 1#1
  let main_v14 : IVec S_ 1 := (fun x v => Host.reduce IntOp.andi x v reducesTo_S65536_S_d0 h_S_) main_v13 main_c_4
  let main_v15 : IVec S_ 1 := andi main_v8 main_v14
  main_v15
-- ==== Kernel.lean ====
abbrev S65536 : Shape := ⟨1, ![65536]⟩
abbrev S1000 : Shape := ⟨1, ![1000]⟩
abbrev S1000x1000 : Shape := ⟨2, ![1000, 1000]⟩
abbrev S_ : Shape := ⟨0, ![]⟩
abbrev S1000x1 : Shape := ⟨2, ![1000, 1]⟩
abbrev S65536x1 : Shape := ⟨2, ![65536, 1]⟩
abbrev S65536x1000 : Shape := ⟨2, ![65536, 1000]⟩
abbrev S1024x1 : Shape := ⟨2, ![1024, 1]⟩
abbrev S1024x1000 : Shape := ⟨2, ![1024, 1000]⟩
abbrev S1x1000 : Shape := ⟨2, ![1, 1000]⟩

abbrev nBuf : Space → Nat
  | .hbm => 54
  | .vmem => 7
  | .smem => 0
  | _ => 0

abbrev bufTy : (tb : Table) → Fin (tcTables nBuf tb) → BufTy
  | .hbm, ⟨0, _⟩ => ⟨S65536, .i32⟩
  | .hbm, ⟨1, _⟩ => ⟨S1000, .f32⟩
  | .hbm, ⟨2, _⟩ => ⟨S1000x1000, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1000, .f32⟩
  | .hbm, ⟨7, _⟩ => ⟨S1000, .f32⟩
  | .hbm, ⟨8, _⟩ => ⟨S_, .f32⟩
  | .hbm, ⟨9, _⟩ => ⟨S1000, .f32⟩
  | .hbm, ⟨10, _⟩ => ⟨S1000, .f32⟩
  | .hbm, ⟨11, _⟩ => ⟨S_, .f32⟩
  | .hbm, ⟨12, _⟩ => ⟨S1000x1000, .f32⟩
  | .hbm, ⟨13, _⟩ => ⟨S1000x1000, .f32⟩
  | .hbm, ⟨14, _⟩ => ⟨S1000x1000, .i32⟩
  | .hbm, ⟨15, _⟩ => ⟨S1000x1000, .i32⟩
  | .hbm, ⟨16, _⟩ => ⟨S_, .i32⟩
  | .hbm, ⟨17, _⟩ => ⟨S1000x1000, .i32⟩
  | .hbm, ⟨18, _⟩ => ⟨S1000x1000, .i32⟩
  | .hbm, ⟨19, _⟩ => ⟨S1000x1000, .i1⟩
  | .hbm, ⟨20, _⟩ => ⟨S1000x1000, .f32⟩
  | .hbm, ⟨21, _⟩ => ⟨S_, .f32⟩
  | .hbm, ⟨22, _⟩ => ⟨S1000x1000, .f32⟩
  | .hbm, ⟨23, _⟩ => ⟨S1000x1000, .f32⟩
  | .hbm, ⟨24, _⟩ => ⟨S1000x1000, .f32⟩
  | .hbm, ⟨25, _⟩ => ⟨S_, .f32⟩
  | .hbm, ⟨26, _⟩ => ⟨S1000, .f32⟩
  | .hbm, ⟨27, _⟩ => ⟨S1000x1, .f32⟩
  | .hbm, ⟨28, _⟩ => ⟨S_, .f32⟩
  | .hbm, ⟨29, _⟩ => ⟨S1000x1, .f32⟩
  | .hbm, ⟨30, _⟩ => ⟨S1000x1, .f32⟩
  | .hbm, ⟨31, _⟩ => ⟨S1000x1000, .f32⟩
  | .hbm, ⟨32, _⟩ => ⟨S1000x1000, .f32⟩
  | .hbm, ⟨33, _⟩ => ⟨S1000x1000, .bf16⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S65536, .i32⟩
  | .hbm, ⟨38, _⟩ => ⟨S65536, .i32⟩
  | .hbm, ⟨39, _⟩ => ⟨S_, .i32⟩
  | .hbm, ⟨40, _⟩ => ⟨S65536, .i32⟩
  | .hbm, ⟨41, _⟩ => ⟨S65536, .i32⟩
  | .hbm, ⟨42, _⟩ => ⟨S65536x1, .i32⟩
  | .hbm, ⟨43, _⟩ => ⟨S_, .i32⟩
  | .hbm, ⟨44, _⟩ => ⟨S65536, .i32⟩
  | .hbm, ⟨45, _⟩ => ⟨S65536, .i1⟩
  | .hbm, ⟨46, _⟩ => ⟨S_, .i32⟩
  | .hbm, ⟨47, _⟩ => ⟨S65536, .i32⟩
  | .hbm, ⟨48, _⟩ => ⟨S65536, .i32⟩
  | .hbm, ⟨49, _⟩ => ⟨S65536, .i32⟩
  | .hbm, ⟨50, _⟩ => ⟨S65536x1, .i32⟩
  | .hbm, ⟨51, _⟩ => ⟨S65536, .f32⟩
  | .hbm, ⟨52, _⟩ => ⟨S65536x1, .f32⟩
  | .hbm, ⟨53, _⟩ => ⟨S65536x1000, .f32⟩
  | .local _ .vmem, ⟨0, _⟩ => ⟨S1024x1, .i32⟩
  | .local _ .vmem, ⟨1, _⟩ => ⟨S1024x1, .i32⟩
  | .local _ .vmem, ⟨2, _⟩ => ⟨S1024x1, .f32⟩
  | .local _ .vmem, ⟨3, _⟩ => ⟨S1024x1, .f32⟩
  | .local _ .vmem, ⟨4, _⟩ => ⟨S1000x1000, .bf16⟩
  | .local _ .vmem, ⟨5, _⟩ => ⟨S1024x1000, .f32⟩
  | .local _ .vmem, ⟨6, _⟩ => ⟨S1024x1000, .f32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_call1_cst : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_c_5 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v18 : Ref sig .tc := ⟨.hbm, 41, rfl⟩
abbrev main_v19 : Ref sig .tc := ⟨.hbm, 42, rfl⟩
abbrev main_c_6 : Ref sig .tc := ⟨.hbm, 43, rfl⟩
abbrev main_v20 : Ref sig .tc := ⟨.hbm, 44, rfl⟩
abbrev main_v21 : Ref sig .tc := ⟨.hbm, 45, rfl⟩
abbrev main_c_7 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x1000 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1000 : S_.BroadcastsInDim S1000 (![] : Fin 0 → Fin S1000.rank)
  bcast_S_S1000x1000 : S_.BroadcastsInDim S1000x1000 (![] : Fin 0 → Fin S1000x1000.rank)
  reducesTo_S1000x1000_S1000_d1 : S1000x1000.ReducesTo [1] S1000
  h_S_ : 0 < S_.numel
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1000x1_S1000x1000_0_1 : S1000x1.BroadcastsInDim S1000x1000 (![0, 1] : Fin 2 → Fin S1000x1000.rank)
  bitsLt_bf16_f32 : FTy.bits .bf16 < FTy.bits .f32
  bcast_S_S65536 : S_.BroadcastsInDim S65536 (![] : Fin 0 → Fin S65536.rank)
  shapeCasts_S65536_S65536x1 : S65536.ShapeCasts S65536x1
  bcast_S65536_S65536x1_0 : S65536.BroadcastsInDim S65536x1 (![0] : Fin 1 → Fin S65536x1.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1x1000_d1_w32 : S1x1000.Iotas .tc 32 [1]
  broadcasts_S1024x1_S1024x1000 : S1024x1.Broadcasts S1024x1000
  broadcasts_S1x1000_S1024x1000 : S1x1000.Broadcasts S1024x1000
  natLt_1_32 : 1 < 32
  inb_S1000x1000_S1000x1000_0_0 : ∀ a, (![0, 0] : Fin 2 → Nat) a + S1000x1000.size a ≤ S1000x1000.size a
  h_S1000x1000 : 0 < S1000x1000.numel
  shapeCasts_S1000x1000_S1000x1000 : S1000x1000.ShapeCasts S1000x1000
  inb_S1024x1000_S1024x1000_0_0 : ∀ a, (![0, 0] : Fin 2 → Nat) a + S1024x1000.size a ≤ S1024x1000.size a
  h_S1024x1000 : 0 < S1024x1000.numel
  gather_S1000_S65536x1_S65536_n_0_n_n_0_1_1_wf : GatherDims.WF S1000 S65536x1 S65536 [] [0] [] [0] [] 1 ![1]
  dot_S1024x1000_S1000x1000_S1024x1000_1_0_0_1_n_n_wf : DotDims.WF S1024x1000 S1000x1000 S1024x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S65536x1.size a
  hwx0_0 : ∀ i : grid0.Coords, EltTy.bits .i32 = 32 ∨ (Rect.block (s := S65536x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S65536x1.size a
  hwx0_1 : ∀ i : grid0.Coords, EltTy.bits .f32 = 32 ∨ (Rect.block (s := S65536x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x1000.size a ≤ S1000x1000.size a
  hwx0_2 : ∀ i : grid0.Coords, EltTy.bits .bf16 = 32 ∨ (Rect.block (s := S1000x1000) S1000x1000.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1000.size a ≤ S65536x1000.size a
  hwx0_3 : ∀ i : grid0.Coords, EltTy.bits .f32 = 32 ∨ (Rect.block (s := S65536x1000) S1024x1000.size (cc0_transform_3 i) (hinb0_3 i)).WholeWords (EltTy.packing .f32)

variable [Facts₀]

def gather_S1000_S65536x1_S65536_n_0_n_n_0_1_1 : GatherDims S1000 S65536x1 S65536 where
  offsetDims := []
  collapsedSliceDims := [0]
  operandBatchingDims := []
  startIndicesBatchingDims := []
  startIndexMap := [0]
  indexVectorDim := 1
  sliceSizes := ![1]
  wf := gather_S1000_S65536x1_S65536_n_0_n_n_0_1_1_wf
def dot_S1024x1000_S1000x1000_S1024x1000_1_0_0_1_n_n : DotDims S1024x1000 S1000x1000 S1024x1000 where
  lhsContracting := [1]
  rhsContracting := [0]
  lhsNonContracting := [0]
  rhsNonContracting := [1]
  lhsBatch := []
  rhsBatch := []
  wf := dot_S1024x1000_S1000x1000_S1024x1000_1_0_0_1_n_n_wf

abbrev win0_0 : Pipeline.Window sig grid0 :=
  Pipeline.Window.ofSpec (Memref.whole main_v19) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1000x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1024x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536 : Shape := ⟨1, ![65536]⟩
abbrev S1000 : Shape := ⟨1, ![1000]⟩
abbrev S1000x1000 : Shape := ⟨2, ![1000, 1000]⟩
abbrev S_ : Shape := ⟨0, ![]⟩
abbrev S1000x1 : Shape := ⟨2, ![1000, 1]⟩
abbrev S65536x1 : Shape := ⟨2, ![65536, 1]⟩
abbrev S65536x1000 : Shape := ⟨2, ![65536, 1000]⟩
abbrev S1x1000 : Shape := ⟨2, ![1, 1000]⟩

abbrev nBuf : Space → Nat
  | .hbm => 67
  | .vmem => 0
  | .smem => 0
  | _ => 0

abbrev bufTy : (tb : Table) → Fin (tcTables nBuf tb) → BufTy
  | .hbm, ⟨0, _⟩ => ⟨S65536, .i32⟩
  | .hbm, ⟨1, _⟩ => ⟨S1000, .f32⟩
  | .hbm, ⟨2, _⟩ => ⟨S1000x1000, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1000, .f32⟩
  | .hbm, ⟨7, _⟩ => ⟨S1000, .f32⟩
  | .hbm, ⟨8, _⟩ => ⟨S_, .f32⟩
  | .hbm, ⟨9, _⟩ => ⟨S1000, .f32⟩
  | .hbm, ⟨10, _⟩ => ⟨S1000, .f32⟩
  | .hbm, ⟨11, _⟩ => ⟨S_, .f32⟩
  | .hbm, ⟨12, _⟩ => ⟨S1000x1000, .f32⟩
  | .hbm, ⟨13, _⟩ => ⟨S1000x1000, .f32⟩
  | .hbm, ⟨14, _⟩ => ⟨S1000x1000, .i32⟩
  | .hbm, ⟨15, _⟩ => ⟨S1000x1000, .i32⟩
  | .hbm, ⟨16, _⟩ => ⟨S_, .i32⟩
  | .hbm, ⟨17, _⟩ => ⟨S1000x1000, .i32⟩
  | .hbm, ⟨18, _⟩ => ⟨S1000x1000, .i32⟩
  | .hbm, ⟨19, _⟩ => ⟨S1000x1000, .i1⟩
  | .hbm, ⟨20, _⟩ => ⟨S1000x1000, .f32⟩
  | .hbm, ⟨21, _⟩ => ⟨S_, .f32⟩
  | .hbm, ⟨22, _⟩ => ⟨S1000x1000, .f32⟩
  | .hbm, ⟨23, _⟩ => ⟨S1000x1000, .f32⟩
  | .hbm, ⟨24, _⟩ => ⟨S1000x1000, .f32⟩
  | .hbm, ⟨25, _⟩ => ⟨S_, .f32⟩
  | .hbm, ⟨26, _⟩ => ⟨S1000, .f32⟩
  | .hbm, ⟨27, _⟩ => ⟨S1000x1, .f32⟩
  | .hbm, ⟨28, _⟩ => ⟨S_, .f32⟩
  | .hbm, ⟨29, _⟩ => ⟨S1000x1, .f32⟩
  | .hbm, ⟨30, _⟩ => ⟨S1000x1, .f32⟩
  | .hbm, ⟨31, _⟩ => ⟨S1000x1000, .f32⟩
  | .hbm, ⟨32, _⟩ => ⟨S1000x1000, .f32⟩
  | .hbm, ⟨33, _⟩ => ⟨S_, .i32⟩
  | .hbm, ⟨34, _⟩ => ⟨S65536, .i32⟩
  | .hbm, ⟨35, _⟩ => ⟨S65536, .i1⟩
  | .hbm, ⟨36, _⟩ => ⟨S_, .i32⟩
  | .hbm, ⟨37, _⟩ => ⟨S65536, .i32⟩
  | .hbm, ⟨38, _⟩ => ⟨S65536, .i32⟩
  | .hbm, ⟨39, _⟩ => ⟨S65536, .i32⟩
  | .hbm, ⟨40, _⟩ => ⟨S65536x1, .i32⟩
  | .hbm, ⟨41, _⟩ => ⟨S65536, .f32⟩
  | .hbm, ⟨42, _⟩ => ⟨S_, .i32⟩
  | .hbm, ⟨43, _⟩ => ⟨S65536, .i32⟩
  | .hbm, ⟨44, _⟩ => ⟨S65536, .i1⟩
  | .hbm, ⟨45, _⟩ => ⟨S_, .i32⟩
  | .hbm, ⟨46, _⟩ => ⟨S65536, .i32⟩
  | .hbm, ⟨47, _⟩ => ⟨S65536, .i32⟩
  | .hbm, ⟨48, _⟩ => ⟨S65536, .i32⟩
  | .hbm, ⟨49, _⟩ => ⟨S65536x1, .i32⟩
  | .hbm, ⟨50, _⟩ => ⟨S65536x1000, .f32⟩
  | .hbm, ⟨51, _⟩ => ⟨S65536x1, .i32⟩
  | .hbm, ⟨52, _⟩ => ⟨S1x1000, .i32⟩
  | .hbm, ⟨53, _⟩ => ⟨S65536x1000, .i32⟩
  | .hbm, ⟨54, _⟩ => ⟨S65536x1000, .i32⟩
  | .hbm, ⟨55, _⟩ => ⟨S65536x1000, .i1⟩
  | .hbm, ⟨56, _⟩ => ⟨S65536x1000, .f32⟩
  | .hbm, ⟨57, _⟩ => ⟨S65536x1, .f32⟩
  | .hbm, ⟨58, _⟩ => ⟨S65536x1000, .f32⟩
  | .hbm, ⟨59, _⟩ => ⟨S65536x1000, .f32⟩
  | .hbm, ⟨60, _⟩ => ⟨S_, .f32⟩
  | .hbm, ⟨61, _⟩ => ⟨S65536, .f32⟩
  | .hbm, ⟨62, _⟩ => ⟨S65536, .f32⟩
  | .hbm, ⟨63, _⟩ => ⟨S65536x1, .f32⟩
  | .hbm, ⟨64, _⟩ => ⟨S65536x1000, .f32⟩
  | .hbm, ⟨65, _⟩ => ⟨S65536x1000, .f32⟩
  | .hbm, ⟨66, _⟩ => ⟨S65536x1000, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_call1_cst : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_c_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩

abbrev nD : Nat := 1
abbrev τ : Topo := Topo.v7x

variable {F : FTy → Type} [FloatOps F]

class Facts₀ : Prop where
  bcast_S_S1000 : S_.BroadcastsInDim S1000 (![] : Fin 0 → Fin S1000.rank)
  bcast_S_S1000x1000 : S_.BroadcastsInDim S1000x1000 (![] : Fin 0 → Fin S1000x1000.rank)
  reducesTo_S1000x1000_S1000_d1 : S1000x1000.ReducesTo [1] S1000
  h_S_ : 0 < S_.numel
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1000x1_S1000x1000_0_1 : S1000x1.BroadcastsInDim S1000x1000 (![0, 1] : Fin 2 → Fin S1000x1000.rank)
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x1000_0_1 : S65536x1.BroadcastsInDim S65536x1000 (![0, 1] : Fin 2 → Fin S65536x1000.rank)
  bcast_S1x1000_S65536x1000_0_1 : S1x1000.BroadcastsInDim S65536x1000 (![0, 1] : Fin 2 → Fin S65536x1000.rank)
  gather_S1000_S65536x1_S65536_n_0_n_n_0_1_1_wf : GatherDims.WF S1000 S65536x1 S65536 [] [0] [] [0] [] 1 ![1]
  gather_S1000x1000_S65536x1_S65536x1000_1_0_n_n_0_1_11000_wf : GatherDims.WF S1000x1000 S65536x1 S65536x1000 [1] [0] [] [0] [] 1 ![1, 1000]

variable [Facts₀]

def gather_S1000_S65536x1_S65536_n_0_n_n_0_1_1 : GatherDims S1000 S65536x1 S65536 where
  offsetDims := []
  collapsedSliceDims := [0]
  operandBatchingDims := []
  startIndicesBatchingDims := []
  startIndexMap := [0]
  indexVectorDim := 1
  sliceSizes := ![1]
  wf := gather_S1000_S65536x1_S65536_n_0_n_n_0_1_1_wf
def gather_S1000x1000_S65536x1_S65536x1000_1_0_n_n_0_1_11000 : GatherDims S1000x1000 S65536x1 S65536x1000 where
  offsetDims := [1]
  collapsedSliceDims := [0]
  operandBatchingDims := []
  startIndicesBatchingDims := []
  startIndexMap := [0]
  indexVectorDim := 1
  sliceSizes := ![1, 1000]
  wf := gather_S1000x1000_S65536x1_S65536x1000_1_0_n_n_0_1_11000_wf

class Facts : Prop extends Facts₀ where

variable [Facts]
-- ==== Proof.PreDecode.lean ====
/-
  The precondition read back. Beside the finiteness of the two float inputs it states that every target is a class
  number: `0 ≤ targets[r] < 1000` for each of the 65536 rows (signed comparisons of 32-bit words, joined by `and` and
  reduced by `and` over all rows). Read at one row this says the word's unsigned value is below 1000.
-/
import proofs.«401739_j45973329936866_3_alg».proof.Pre_finite_inputs
import Idealize.ShloMosaic.Lib.ReduceAll
import Idealize.ShloMosaic.Lib.IdealHost
import Idealize.ShloMosaic.Lib.StableHlo.Predicate

namespace Cert.Smooth

open Idealize.ShloMosaic Idealize.ShloMosaic.ValueIdx

/-- Every target word is a class number: its unsigned value is below 1000. -/
def InRange (t : IVec ⟨1, ![65536]⟩ 32) : Prop := ∀ r : Fin 65536, (t (ix1 r)).toNat < 1000

/-- A 32-bit word whose signed value lies in `[0, 1000)` has unsigned value below 1000. -/
theorem toNat_lt_of_toInt_range (a : BitVec 32) (h0 : 0 ≤ a.toInt) (h1 : a.toInt < 1000) : a.toNat < 1000 := by
  have := BitVec.toInt_eq_toNat_cond a
  split_ifs at this <;> omega

variable [Cert.Pre_finite_inputs.Facts]

/-- The printed precondition, all ones, gives the targets' range. -/
theorem inRange_of_pre {F : FTy → Type} [FloatOps F] (t : IVec Cert.Pre_finite_inputs.S65536 32)
    (os : FVec F Cert.Pre_finite_inputs.S1000 .f32) (od : FVec F Cert.Pre_finite_inputs.S1000x1000 .f32)
    (h : Cert.Pre_finite_inputs.fn (F := F) t os od = fun _ => 1#1) : InRange t := by
  intro r
  have h0 := congrFun h ix0
  dsimp only [Cert.Pre_finite_inputs.fn] at h0
  change IntOp.andi _ _ = 1#1 at h0
  have h14 := (IntOp.andi_eq_one.1 h0).2
  haveI : Subsingleton Cert.Pre_finite_inputs.S_.Idx := ⟨fun a b => funext fun d => d.elim0⟩
  have e := Host.reduce_andi_all _ _ _ _ _ h14 (ix1 r)
  change IntOp.andi _ _ = 1#1 at e
  obtain ⟨e1, e2⟩ := IntOp.andi_eq_one.1 e
  have e1' := IntOp.cmpi_sge.1 e1
  have e2' := IntOp.cmpi_slt.1 e2
  rw [broadcastInDim_scalar_apply] at e1' e2'
  have z0 : (constantI Cert.Pre_finite_inputs.S_ 32 0#32 ix0).toInt = 0 := by decide
  have z1 : (constantI Cert.Pre_finite_inputs.S_ 32 1000#32 ix0).toInt = 1000 := by decide
  rw [z0] at e1'
  rw [z1] at e2'
  exact toNat_lt_of_toInt_range _ e1' e2'

end Cert.Smooth
-- ==== Proof.LibRowGather.lean ====
/-
  A row gather read at an element. jnp's `table[idx]` over a rank-2 table `[N, M]` with a vector of `n` row numbers
  lowers to a `stablehlo.gather` whose start indices are the `[n, 1]` column of row numbers, whose operand axis 0 is
  collapsed and start-indexed, whose operand axis 1 is kept whole as the result's offset axis 1, and whose index vector
  sits on axis 1 of the start indices. Result element `(p, q)` is the table at row "start index of `p`, read signed and
  clamped into `[0, N - 1]`" and column `q`.
-/
import Idealize.ShloMosaic.Lib.StableHlo.Predicate

namespace Cert.LibRowGather

open Idealize.ShloMosaic Idealize.ShloMosaic.StableHlo.Predicate

/-- The one entry of a list known to be a singleton. -/
theorem getElem_of_eq_singleton {α : Type} {L : List α} {x : α} (h : L = [x]) (k : Nat) (hk : k < L.length) : L[k] = x := by
  subst h
  have hk0 : k = 0 := by simpa using hk
  subst hk0
  rfl

section
variable {α : Type} {N M n w : Nat} (d : GatherDims ⟨2, ![N, M]⟩ ⟨2, ![n, 1]⟩ ⟨2, ![n, M]⟩)
  (hoff : d.offsetDims = [1]) (hcoll : d.collapsedSliceDims = [0]) (hob : d.operandBatchingDims = [])
  (hsim : d.startIndexMap = [0]) (hivd : d.indexVectorDim = 1)
include hoff hcoll hob hsim hivd

/-- The start-indices entry that result row `p` reads its row number from is entry `(p, 0)`. -/
theorem siIdx_row (p : Fin n) (q : Fin M) (c : Fin d.startIndexMap.length) : d.siIdx (ij p q) c = ixP p := by
  have hc : c.val = 0 := by
    have hlen : d.startIndexMap.length = 1 := by rw [hsim]; rfl
    have := c.isLt
    omega
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      show (⟨2, ![n, M]⟩ : Shape).kept d.offsetDims = [0]
      rw [hoff]; rfl
    rw [getElem_of_eq_singleton hbd]
    rfl
  | ⟨1, _⟩ =>
    unfold GatherDims.siIdx
    rw [dif_pos (by rw [hivd])]
    apply Fin.ext
    exact hc

/-- On the table's row axis the operand index is the clamped start index. -/
theorem operandIdx_row (idx : IVec ⟨2, ![n, 1]⟩ w) (p : Fin n) (q : Fin M) :
    (d.operandIdx (ij p q) idx 0).val = min (idx (ixP p)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [siIdx_row d hoff hcoll hob hsim hivd p q, hsl]
  rfl

/-- On the table's column axis the operand index is the result's column. -/
theorem operandIdx_col (idx : IVec ⟨2, ![n, 1]⟩ w) (p : Fin n) (q : Fin M) :
    (d.operandIdx (ij p q) idx 1).val = q.val := by
  have hb : (1 : Fin 2) ∉ d.operandBatchingDims := by rw [hob]; exact List.not_mem_nil
  have hm : (1 : Fin 2) ∉ d.startIndexMap := by rw [hsim]; simp
  have hk : (1 : Fin 2) ∈ d.sKept := by rw [GatherDims.mem_sKept, hcoll, hob]; simp
  simp only [GatherDims.operandIdx, GatherDims.batchCoord_eq_zero _ _ _ hb, Nat.add_zero, GatherDims.start, dif_neg hm,
    Nat.zero_add, GatherDims.offCoord, dif_pos hk]
  rw [getElem_of_eq_singleton hoff]
  rfl

/-- THE ROW GATHER at `(p, q)`: the table at the clamped row number of `p` and at column `q`. -/
theorem gather_rows (x : (⟨2, ![N, M]⟩ : Shape).Idx → α) (idx : IVec ⟨2, ![n, 1]⟩ w) (p : Fin n) (q : Fin M) (hN : 0 < N) :
    Host.gather d x idx (ij p q) = x (ij ⟨min (idx (ixP p)).toInt.toNat (N - 1), by omega⟩ q) := by
  unfold Host.gather
  congr 1
  funext a
  match a with
  | ⟨0, _⟩ => exact Fin.ext (operandIdx_row d hoff hcoll hob hsim hivd idx p q)
  | ⟨1, _⟩ => exact Fin.ext (operandIdx_col d hoff hcoll hob hsim hivd idx p q)

end

end Cert.LibRowGather
-- ==== Proof.RefValue.lean ====
/-
  The reference read at one element, for targets that are class numbers.
-/
import proofs.«401739_j45973329936866_3_alg».proof.Proof.Gen.ReferenceIdeal.Read
import proofs.«401739_j45973329936866_3_alg».proof.Proof.PreDecode
import proofs.«401739_j45973329936866_3_alg».proof.Proof.LibRowGather
import Idealize.ShloMosaic.Lib.IdealHost
import Idealize.ShloMosaic.Lib.StableHlo.Predicate

noncomputable section

namespace Cert.Smooth

open Idealize.ShloMosaic Idealize.ShloMosaic.ValueIdx Idealize.ShloMosaic.StableHlo.Predicate
open Cert.ReferenceIdeal Cert.ReferenceIdeal.Gen Cert.ReferenceIdeal.Read

/-- The class of row `r`: its target word read signed and clamped into `[0, 999]`. -/
def cls (t : IVec S65536 32) (r : Fin 65536) : Fin 1000 := ⟨min (t (ix1 r)).toInt.toNat 999, by omega⟩

theorem ofFin_eq_ix1 {n : Nat} (p : Fin n) : (Shape.Idx.ofFin p : (⟨1, ![n]⟩ : Shape).Idx) = ix1 p := by
  funext d; match d with | ⟨0, _⟩ => rfl

theorem ij_eq_ix2 {n m : Nat} (p : Fin n) (q : Fin m) : ij p q = ix2 p q := by
  funext d; match d with | ⟨0, _⟩ => rfl | ⟨1, _⟩ => rfl

/-- For a class number the negative-index wrap leaves the word alone. -/
theorem wrap21 (t : IVec S65536 32) (ht : InRange t) (r : Fin 65536) : val_main_v21 (F := Ideal) t (ix1 r) = t (ix1 r) := by
  rw [val_main_v21_apply, val_main_v18_apply, val_main_v17_apply, val_main_c_4_apply]
  have h := ht r
  have : IntOp.cmpi .slt (t (ix1 r)) 0#32 = 0#1 := by
    apply eq_zero_of_ne_one
    rw [IntOp.cmpi_slt]
    have := toInt_eq_toNat_of_lt (a := t (ix1 r)) (by omega)
    have z : (0#32 : BitVec 32).toInt = 0 := by decide
    omega
  rw [this, select_zero]

theorem wrap28 (t : IVec S65536 32) (ht : InRange t) (r : Fin 65536) : val_main_v28 (F := Ideal) t (ix1 r) = t (ix1 r) := by
  rw [val_main_v28_apply, val_main_v25_apply, val_main_v24_apply, val_main_c_6_apply]
  have h := ht r
  have : IntOp.cmpi .slt (t (ix1 r)) 0#32 = 0#1 := by
    apply eq_zero_of_ne_one
    rw [IntOp.cmpi_slt]
    have := toInt_eq_toNat_of_lt (a := t (ix1 r)) (by omega)
    have z : (0#32 : BitVec 32).toInt = 0 := by decide
    omega
  rw [this, select_zero]

theorem idx22 (r : Fin 65536) : idx_main_v22 (ixP r) = ix1 r := by funext d; match d with | ⟨0, _⟩ => rfl
theorem idx29 (r : Fin 65536) : idx_main_v29 (ixP r) = ix1 r := by funext d; match d with | ⟨0, _⟩ => rfl

theorem col22 (t : IVec S65536 32) (ht : InRange t) (r : Fin 65536) : val_main_v22 (F := Ideal) t (ixP r) = t (ix1 r) := by
  rw [val_main_v22_apply, idx22, wrap21 t ht]
theorem col29 (t : IVec S65536 32) (ht : InRange t) (r : Fin 65536) : val_main_v29 (F := Ideal) t (ixP r) = t (ix1 r) := by
  rw [val_main_v29_apply, idx29, wrap28 t ht]

/-- The gathered smoothing weight of row `r` is the clamped weight of its class. -/
theorem ref_w (t : IVec S65536 32) (os : FVec Ideal S1000 .f32) (ht : InRange t) (r : Fin 65536) :
    val_main_v23 (F := Ideal) t os (ix1 r) = val_main_v0 (F := Ideal) os (ix1 (cls t r)) := by
  unfold val_main_v23
  rw [← ofFin_eq_ix1, gather_take _ rfl rfl rfl rfl _ _ r (by decide)]
  refine congrArg (val_main_v0 (F := Ideal) os) ?_
  rw [ofFin_eq_ix1]
  refine congrArg ix1 (Fin.ext ?_)
  show min (BitVec.toInt (val_main_v22 (F := Ideal) t (ixP r))).toNat (1000 - 1) = min (t (ix1 r)).toInt.toNat 999
  rw [col22 t ht]

/-- The gathered row of row `r` is the normalized matrix's row of its class. -/
theorem ref_rows (t : IVec S65536 32) (od : FVec Ideal S1000x1000 .f32) (ht : InRange t) (r : Fin 65536) (q : Fin 1000) :
    val_main_v30 (F := Ideal) t od (ix2 r q) = val_main_v16 (F := Ideal) od (ix2 (cls t r) q) := by
  unfold val_main_v30
  rw [← ij_eq_ix2, Cert.LibRowGather.gather_rows _ rfl rfl rfl rfl rfl _ _ r q (by decide)]
  refine congrArg (val_main_v16 (F := Ideal) od) ?_
  rw [ij_eq_ix2]
  refine congrArg (fun a => ix2 a q) (Fin.ext ?_)
  show min (BitVec.toInt (val_main_v29 (F := Ideal) t (ixP r))).toNat (1000 - 1) = min (t (ix1 r)).toInt.toNat 999
  rw [col29 t ht]

/-- A class number's clamped reading is its unsigned value. -/
theorem cls_val (t : IVec S65536 32) (ht : InRange t) (r : Fin 65536) : (cls t r).val = (t (ix1 r)).toNat := by
  have h := ht r
  have := toInt_eq_toNat_of_lt (a := t (ix1 r)) (by omega)
  show min (t (ix1 r)).toInt.toNat 999 = _
  omega

theorem word_eq (t : IVec S65536 32) (ht : InRange t) (r : Fin 65536) : t (ix1 r) = BitVec.ofNat 32 (cls t r).val := by
  apply BitVec.eq_of_toNat_eq
  rw [BitVec.toNat_ofNat, cls_val t ht]
  have h := ht r
  exact (Nat.mod_eq_of_lt (by omega)).symm

/-- The one-hot bit of row `r` at column `q`: set exactly when `q` is the row's class. -/
theorem onehot_bit (t : IVec S65536 32) (ht : InRange t) (r : Fin 65536) (q : Fin 1000) :
    IntOp.cmpi .eq (t (ix1 r)) (BitVec.ofNat 32 q.val) = if cls t r = q then 1#1 else 0#1 := by
  by_cases h : cls t r = q
  · rw [if_pos h]; exact IntOp.cmpi_eq.2 (by rw [word_eq t ht, h])
  · rw [if_neg h]
    apply eq_zero_of_ne_one
    intro e
    apply h
    have e' := congrArg BitVec.toNat (IntOp.cmpi_eq.1 e)
    rw [← cls_val t ht, BitVec.toNat_ofNat] at e'
    have hq := q.isLt
    exact Fin.ext (by omega)

theorem uitofp_one : FloatOps.uitofp (F := Ideal) .f32 (1#1 : BitVec 1) = (1 : EReal) := by
  show ((((1#1 : BitVec 1).toNat : ℕ) : ℝ) : EReal) = 1
  simp
theorem uitofp_zero : FloatOps.uitofp (F := Ideal) .f32 (0#1 : BitVec 1) = (0 : EReal) := by
  show ((((0#1 : BitVec 1).toNat : ℕ) : ℝ) : EReal) = 0
  simp

theorem idx_w (r : Fin 65536) (q : Fin 1000) : idx_main_v32 (idx_main_v33 (ix2 r q)) = ix1 r := by
  funext d; match d with | ⟨0, _⟩ => rfl
theorem idx_w' (r : Fin 65536) (q : Fin 1000) : idx_main_v37 (idx_main_v38 (ix2 r q)) = ix1 r := by
  funext d; match d with | ⟨0, _⟩ => rfl
theorem idx_oh (r : Fin 65536) (q : Fin 1000) : idx_main_call2_v0 (idx_main_call2_v2 (ix2 r q)) = ix1 r := by
  funext d; match d with | ⟨0, _⟩ => rfl

/-- THE REFERENCE AT `(r, q)`: `w · N[c, q] + (1 − w) · [c = q]`, with `c` the row's class, `w` the clamped smoothing
    weight of `c` and `N` the normalized off-diagonal matrix. -/
theorem ref_apply (t : IVec S65536 32) (os : FVec Ideal S1000 .f32) (od : FVec Ideal S1000x1000 .f32) (ht : InRange t)
    (r : Fin 65536) (q : Fin 1000) :
    val_main_v40 (F := Ideal) t os od (ix2 r q)
      = val_main_v0 (F := Ideal) os (ix1 (cls t r)) * val_main_v16 (F := Ideal) od (ix2 (cls t r) q)
        + (1 - val_main_v0 (F := Ideal) os (ix1 (cls t r))) * (if cls t r = q then (1 : EReal) else 0) := by
  rw [val_main_v40_apply, val_main_v34_apply, val_main_v39_apply, val_main_v33_apply, val_main_v32_apply, idx_w,
    val_main_v38_apply, val_main_v37_apply, idx_w', val_main_v36_apply, val_main_v35_apply, val_main_cst_8_apply,
    ref_w t os ht, ref_rows t od ht, val_main_v31_apply, val_main_call2_v4_apply, val_main_call2_v2_apply,
    val_main_call2_v0_apply, idx_oh, val_main_call2_v3_apply, val_main_call2_v1_apply]
  have hq : (idx_main_call2_v3 (ix2 r q) 1).val = q.val := rfl
  rw [hq, onehot_bit t ht]
  simp only [Ideal.addf_def, Ideal.mulf_def, Ideal.subf_def, Ideal.ofBits_def, Ideal.ofBits_one_f32]
  by_cases h : cls t r = q
  · rw [if_pos h, if_pos h, uitofp_one]
  · rw [if_neg h, if_neg h, uitofp_zero]

end Cert.Smooth
-- ==== Proof.NormDiag.lean ====
/-
  The normalized matrix has a zero diagonal. Each entry of the masked matrix is `max(x, 0) · (1 − [row = column])`, which is
  never negative and is zero on the diagonal; a row's normalizer is the sum of such entries plus a positive constant, so
  it is not zero, and zero divided by it is zero.
-/
import proofs.«401739_j45973329936866_3_alg».proof.Proof.RefValue

noncomputable section

namespace Cert.Smooth

open Idealize.ShloMosaic Idealize.ShloMosaic.ValueIdx Idealize.ShloMosaic.StableHlo.Predicate
open Cert.ReferenceIdeal Cert.ReferenceIdeal.Gen Cert.ReferenceIdeal.Read

/-- The normalizer's additive constant (the f32 nearest 1e-8) is positive. -/
theorem eps_pos : (0 : EReal) < Ideal.ofBits .f32 0x322BCC77#32 := by
  simp [Ideal.ofBits, Ideal.ieee, -EReal.coe_mul]

theorem one_sub_one : (1 : EReal) - 1 = 0 := by
  rw [← EReal.coe_one, ← EReal.coe_sub, sub_self, EReal.coe_zero]

/-- The mask `1 − [row = column]` is 0 or 1. -/
theorem mask_nonneg (i : S1000x1000.Idx) : (0 : EReal) ≤ val_main_v9 (F := Ideal) i := by
  rw [val_main_v9_apply, val_main_v8_apply, val_main_cst_1_apply, val_main_v7_apply]
  simp only [Ideal.subf_def, Ideal.ofBits_def, Ideal.ofBits_one_f32]
  rcases BitVec.eq_zero_or_eq_one (val_main_v6 (F := Ideal) i) with h | h
  · rw [h, uitofp_zero, sub_zero]; exact zero_le_one
  · rw [h, uitofp_one, one_sub_one]

/-- No entry of the masked matrix is negative. -/
theorem masked_nonneg (od : FVec Ideal S1000x1000 .f32) (i : S1000x1000.Idx) : (0 : EReal) ≤ val_main_v10 (F := Ideal) od i := by
  rw [val_main_v10_apply, val_main_v1_apply]
  simp only [Ideal.mulf_def, Ideal.maximumf_def]
  exact mul_nonneg (le_max_of_le_right (by
    rw [val_main_call1_v0_apply, val_main_call1_cst_apply]
    simp only [Ideal.ofBits_def, Ideal.ofBits_zero_f32]
    exact le_refl _)) (mask_nonneg i)

/-- The diagonal of the masked matrix is zero. -/
theorem masked_diag (od : FVec Ideal S1000x1000 .f32) (a : Fin 1000) : val_main_v10 (F := Ideal) od (ix2 a a) = 0 := by
  rw [val_main_v10_apply, val_main_v9_apply, val_main_v8_apply, val_main_cst_1_apply, val_main_v7_apply, val_main_v6_apply,
    val_main_v5_apply, val_main_v2_apply, val_main_v3_apply, val_main_v4_apply, val_main_c_apply]
  have hbit : IntOp.cmpi .eq (IntOp.addi (BitVec.ofNat 32 ((ix2 a a : S1000x1000.Idx) 0).val) 0#32)
      (BitVec.ofNat 32 ((ix2 a a : S1000x1000.Idx) 1).val) = 1#1 :=
    IntOp.cmpi_eq.2 (by show BitVec.ofNat 32 a.val + 0#32 = BitVec.ofNat 32 a.val; simp)
  rw [hbit, uitofp_one]
  simp only [Ideal.mulf_def, Ideal.subf_def, Ideal.ofBits_def, Ideal.ofBits_one_f32]
  rw [one_sub_one, mul_zero]

/-- A row's normalizer is not zero. -/
theorem normalizer_ne_zero (od : FVec Ideal S1000x1000 .f32) (i : S1000x1000.Idx) : val_main_v15 (F := Ideal) od i ≠ 0 := by
  rw [val_main_v15_apply, val_main_v14_apply, val_main_v12_apply, val_main_v13_apply, val_main_cst_3_apply, val_main_v11_apply,
    val_main_cst_2_apply]
  simp only [Ideal.addf_def, Ideal.ofBits_def, Ideal.ofBits_zero_f32, zero_add]
  have hs : (0 : EReal) ≤ ∑ k : Fin 1000, val_main_v10 (F := Ideal) od (idx_main_v11 (idx_main_v12 (idx_main_v15 i)) k) :=
    Finset.sum_nonneg fun k _ => masked_nonneg od _
  exact (lt_of_lt_of_le eps_pos (le_add_of_nonneg_left hs)).ne'

/-- THE DIAGONAL OF THE NORMALIZED MATRIX IS ZERO. -/
theorem normalized_diag (od : FVec Ideal S1000x1000 .f32) (a : Fin 1000) : val_main_v16 (F := Ideal) od (ix2 a a) = 0 := by
  rw [val_main_v16_apply, masked_diag od a]
  simp only [Ideal.hostDivf_def]
  exact Ideal.zero_div (normalizer_ne_zero od _)

/-- THE COMMON VALUE at `(r, q)`: with `c` the row's class and `w` its clamped smoothing weight, `1 − w` at the class's own
    column and `w · N[c, q]` elsewhere. -/
def smoothedAt (t : IVec S65536 32) (os : FVec Ideal S1000 .f32) (od : FVec Ideal S1000x1000 .f32) (r : Fin 65536) (q : Fin 1000) : EReal :=
  if cls t r = q then 1 - val_main_v0 (F := Ideal) os (ix1 (cls t r))
    else val_main_v0 (F := Ideal) os (ix1 (cls t r)) * val_main_v16 (F := Ideal) od (ix2 (cls t r) q)

/-- The common value as an array. -/
def smoothed (t : IVec S65536 32) (os : FVec Ideal S1000 .f32) (od : FVec Ideal S1000x1000 .f32) : S65536x1000.Idx → EReal :=
  fun i => smoothedAt t os od (i 0) (i 1)

/-- The reference computes `smoothed`: on the class's column `w · 0 + (1 − w) · 1`, elsewhere `w · N[c, q] + (1 − w) · 0`. -/
theorem ref_eq_smoothed (t : IVec S65536 32) (os : FVec Ideal S1000 .f32) (od : FVec Ideal S1000x1000 .f32) (ht : InRange t) :
    val_main_v40 (F := Ideal) t os od = smoothed t os od := by
  funext i
  obtain ⟨r, q, rfl⟩ : ∃ (r : Fin 65536) (q : Fin 1000), i = ix2 r q := ⟨i 0, i 1, eq_ix2 i⟩
  rw [ref_apply t os od ht r q]
  show _ = smoothedAt t os od r q
  unfold smoothedAt
  by_cases h : cls t r = q
  · rw [if_pos h, if_pos h, ← h, normalized_diag od, mul_zero, zero_add, mul_one]
  · rw [if_neg h, if_neg h, mul_zero, add_zero]

end Cert.Smooth
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.KernelBody.lean ====
/-
  The kernel body's stored value at one element of its [1024, 1000] block. With `t` the row's target word, `w` the row's
  weight and `N` the staged matrix: the one-hot bit `[t = q]` selects between `1 − w` and `w` times the one-hot row's
  product with `N`, the sum over `k` of `[t = k] · N[k, q]`.
-/
import proofs.«401739_j45973329936866_3_alg».proof.Proof.Gen.KernelIdeal.Skeleton
import proofs.«401739_j45973329936866_3_alg».proof.Proof.LibPlainDot
import Idealize.ShloMosaic.Lib.Pipeline.Value
import Idealize.ShloMosaic.Lib.ValueIdx
import Idealize.ShloMosaic.Lib.IdealHost

set_option maxRecDepth 16384

noncomputable section

namespace Cert.Smooth

open Idealize.ShloMosaic Idealize.ShloMosaic.ValueIdx
open Cert.KernelIdeal Cert.KernelIdeal.Gen

/-- A column broadcast along rows reads the column at the row. -/
theorem bcol {α : Type} (x : S1024x1.Idx → α) (h : S1024x1.Broadcasts S1024x1000) (p : Fin 1024) (q : Fin 1000) :
    broadcastTo S1024x1000 x h (ix2 p q) = x (ix2 p 0) :=
  broadcastTo_apply x h (ix2 p q) (ix2 p 0) (fun a => match a with
    | ⟨0, _⟩ => by show p.val = if (1024 : Nat) = 1 then 0 else p.val; rw [if_neg (by decide)]
    | ⟨1, _⟩ => by show 0 = if (1 : Nat) = 1 then 0 else q.val; rw [if_pos rfl])

/-- A row broadcast down columns reads the row at the column. -/
theorem brow {α : Type} (x : S1x1000.Idx → α) (h : S1x1000.Broadcasts S1024x1000) (p : Fin 1024) (q : Fin 1000) :
    broadcastTo S1024x1000 x h (ix2 p q) = x (ix2 0 q) :=
  broadcastTo_apply x h (ix2 p q) (ix2 0 q) (fun a => match a with
    | ⟨0, _⟩ => by show 0 = if (1 : Nat) = 1 then 0 else p.val; rw [if_pos rfl]
    | ⟨1, _⟩ => by show q.val = if (1000 : Nat) = 1 then 0 else q.val; rw [if_neg (by decide)])

theorem cmpi_at {s : Shape} {w : Nat} (pr : CmpIPredicate) (a b : IVec s w) (i : s.Idx) :
    cmpi pr a b i = IntOp.cmpi pr (a i) (b i) := rfl

/-- The one-hot compare at `(p, k)`: the row's target word against the class number `k`. -/
theorem onehot_at (v0 : Vec Ideal S1024x1 .i32) (h2 : S1024x1.Broadcasts S1024x1000)
    (h3 : S1x1000.Broadcasts S1024x1000) (hi : S1x1000.Iotas .tc 32 [1]) (p : Fin 1024) (k : Fin 1000) :
    cmpi .eq (broadcastTo S1024x1000 v0 h2) (broadcastTo S1024x1000 (iota .tc S1x1000 32 [1] hi) h3) (ix2 p k)
      = IntOp.cmpi .eq (v0 (ix2 p 0)) (BitVec.ofNat 32 k.val) := by
  rw [cmpi_at, bcol, brow, iota_single_apply]

/-- The body's matrix product has a plain product's dimension numbers. -/
theorem dot_plain : Cert.Lib.PlainDot dot_S1024x1000_S1000x1000_S1024x1000_1_0_0_1_n_n := ⟨rfl, rfl, rfl, rfl, rfl, rfl⟩

/-- THE STORED VALUE AT `(p, q)`. -/
theorem pay_apply (v0 : Vec Ideal S1024x1 .i32) (v9 : Vec Ideal S1000x1000 .bf16) (v12 : Vec Ideal S1024x1 .f32) (p : Fin 1024) (q : Fin 1000) :
    k0_pay1 (F := Ideal) v0 v9 v12 (ix2 p q)
      = Scalar.select (IntOp.cmpi .eq (v0 (ix2 p 0)) (BitVec.ofNat 32 q.val)) ((1 : EReal) - v12 (ix2 p 0))
          (v12 (ix2 p 0) * ∑ k : Fin 1000,
            ((((IntOp.cmpi .eq (v0 (ix2 p 0)) (BitVec.ofNat 32 k.val)).setWidth 32).toInt : ℝ) : EReal) * v9 (ix2 k q)) := by
  unfold k0_pay1
  dsimp only
  simp only [shapeCast_self]
  rw [select_apply, onehot_at, subf_apply, mulf_apply, broadcast_apply, bcol]
  unfold matmul
  rw [Cert.Lib.PlainDot.matmul_zero_apply dot_plain]
  simp only [Ideal.ofBits_def, Ideal.ofBits_one_f32]
  refine congrArg (Scalar.select _ _) (congrArg (_ * ·) (Finset.sum_congr rfl fun k _ => ?_))
  rw [truncf_apply, sitofp_apply, extui_apply, onehot_at]
  rfl

end Cert.Smooth
-- ==== Proof.BlockValue.lean ====
/-
  The body's stored value at one element is the common value. With the row's target a class number `c`, the one-hot
  row has a single one, at `c`, so its product with the matrix is the matrix's row `c`: the sum over `k` of
  `[c = k] · N[k, q]` is `N[c, q]`. The select on `[c = q]` then gives `1 − w` on the class's column and `w · N[c, q]` elsewhere.
-/
import proofs.«401739_j45973329936866_3_alg».proof.Proof.KernelBody
import proofs.«401739_j45973329936866_3_alg».proof.Proof.NormDiag

set_option maxRecDepth 16384

noncomputable section

namespace Cert.Smooth

open Idealize.ShloMosaic Idealize.ShloMosaic.ValueIdx
open Cert.KernelIdeal Cert.KernelIdeal.Gen

/-- A one-hot bit, widened to a word and read as a signed integer, is 1 or 0. -/
theorem bit_real (b : BitVec 1) : ((((b.setWidth 32).toInt : ℤ) : ℝ) : EReal) = if b = 1#1 then 1 else 0 := by
  rcases BitVec.eq_zero_or_eq_one b with rfl | rfl
  · have : ((0#1 : BitVec 1).setWidth 32).toInt = 0 := by decide
    rw [this, if_neg (by decide)]; simp
  · have : ((1#1 : BitVec 1).setWidth 32).toInt = 1 := by decide
    rw [this, if_pos rfl]; simp

/-- The one-hot row of class `c` times the matrix is the matrix's row `c`. -/
theorem onehot_row_sum (t : IVec S65536 32) (ht : InRange t) (r : Fin 65536) (f : Fin 1000 → EReal) :
    ∑ k : Fin 1000, ((((IntOp.cmpi .eq (t (ix1 r)) (BitVec.ofNat 32 k.val)).setWidth 32).toInt : ℝ) : EReal) * f k
      = f (cls t r) := by
  rw [Finset.sum_eq_single (cls t r)]
  · rw [onehot_bit t ht, bit_real, if_pos rfl, if_pos rfl, one_mul]
  · intro k _ hk
    rw [onehot_bit t ht, bit_real, if_neg (Ne.symm hk), if_neg (by decide), zero_mul]
  · intro h; exact absurd (Finset.mem_univ _) h

/-- THE BODY'S VALUE AT `(p, q)` of a block whose row `p` is array row `row p`: the common value there. -/
theorem block_value (x0 : Vec Ideal S1024x1 .i32) (x1 : Vec Ideal S1024x1 .f32) (x2 : Vec Ideal S1000x1000 .bf16)
    (t : IVec S65536 32) (os : FVec Ideal S1000 .f32) (od : FVec Ideal S1000x1000 .f32) (ht : InRange t)
    (row : Fin 1024 → Fin 65536)
    (h0 : ∀ p : Fin 1024, x0 (ix2 p 0) = t (ix1 (row p)))
    (h1 : ∀ p : Fin 1024, x1 (ix2 p 0) = Cert.ReferenceIdeal.Read.val_main_v0 (F := Ideal) os (ix1 (cls t (row p))))
    (h2 : ∀ i : S1000x1000.Idx, x2 i = Cert.ReferenceIdeal.Read.val_main_v16 (F := Ideal) od i)
    (p : Fin 1024) (q : Fin 1000) :
    k0_pay1 (F := Ideal) x0 x2 x1 (ix2 p q) = smoothedAt t os od (row p) q := by
  rw [pay_apply, h0, h1, onehot_bit t ht, onehot_row_sum t ht (row p) (fun k => x2 (ix2 k q)), h2]
  unfold smoothedAt
  by_cases h : cls t (row p) = q
  · rw [if_pos h, if_pos h, select_one]
  · rw [if_neg h, if_neg h, select_zero]

end Cert.Smooth
-- ==== Proof.KernelHost.lean ====
/-
  The three arrays the kernel's windows read, as the host operations before the call leave them: the normalized
  matrix (the same operations as the reference's, then a change of float format, which is the identity on extended
  reals), the targets clamped into [0, 999] and laid as a column, and the clamped smoothing weight gathered at each
  clamped target, laid as a column. For targets that are class numbers the clamp does nothing.
-/
import proofs.«401739_j45973329936866_3_alg».proof.Proof.Gen.KernelIdeal.Frame
import proofs.«401739_j45973329936866_3_alg».proof.Proof.RefValue
import Idealize.ShloMosaic.Lib.StableHlo.Run
import Idealize.ShloMosaic.Lib.Pipeline.Value

set_option maxRecDepth 16384

noncomputable section

namespace Cert.Smooth

open Idealize.ShloMosaic Idealize.ShloMosaic.TcCoe Idealize.ShloMosaic.ValueIdx Idealize.ShloMosaic.StableHlo.Predicate
open Idealize.ShloMosaic.StableHlo
open Cert.KernelIdeal Cert.KernelIdeal.Gen

variable (m : (ℓ : Loc nD τ sig) → Buf (Elt Ideal) ℓ)

/-- The normalized matrix the kernel stages is the reference's. -/
theorem V17 (c : Dev nD) : (V m c main_v17 : S1000x1000.Idx → EReal)
    = Cert.ReferenceIdeal.Read.val_main_v16 (F := Ideal) (m ((c : Thread nD τ).loc main_arg2)) := by
  dsimp only [V]
  simp only [hostOps0, hostOps0_1, hostOps0_2, hostOps0_3, hostOps0_4, hostOps0_5, List.flatten_cons, List.flatten_nil,
    List.append_nil, List.cons_append, List.nil_append]
  after_results_simp
  rfl

/-- The targets clamped into [0, 999], as the host computes them: `min(999, max(0, t))`. -/
def clampT (t : IVec S65536 32) : IVec S65536 32 :=
  minsi (broadcastInDim S65536 ![] bcast_S_S65536 (constantI S_ 32 999#32))
    (maxsi (broadcastInDim S65536 ![] bcast_S_S65536 (constantI S_ 32 0#32)) t)

theorem V19 (c : Dev nD) : (V m c main_v19 : S65536x1.Idx → BitVec 32)
    = shapeCast S65536x1 (clampT (m ((c : Thread nD τ).loc main_arg0))) shapeCasts_S65536_S65536x1 := by
  dsimp only [V]
  simp only [hostOps0, hostOps0_1, hostOps0_2, hostOps0_3, hostOps0_4, hostOps0_5, List.flatten_cons, List.flatten_nil,
    List.append_nil, List.cons_append, List.nil_append]
  after_results_simp
  rfl

/-- The clamped targets with jnp's negative-index wrap applied, as a column of start indices. -/
def startCol (t : IVec S65536 32) : IVec S65536x1 32 :=
  broadcastInDim S65536x1 ![0] bcast_S65536_S65536x1_0
    (select (cmpi .slt (clampT t) (broadcastInDim S65536 ![] bcast_S_S65536 (constantI S_ 32 0#32)))
      (addi (clampT t) (broadcastInDim S65536 ![] bcast_S_S65536 (constantI S_ 32 1000#32))) (clampT t))

theorem V27 (c : Dev nD) : (V m c main_v27 : S65536x1.Idx → EReal)
    = shapeCast S65536x1 (Host.gather gather_S1000_S65536x1_S65536_n_0_n_n_0_1_1
        (Cert.ReferenceIdeal.Read.val_main_v0 (F := Ideal) (m ((c : Thread nD τ).loc main_arg1)))
        (startCol (m ((c : Thread nD τ).loc main_arg0)))) shapeCasts_S65536_S65536x1 := by
  dsimp only [V]
  simp only [hostOps0, hostOps0_1, hostOps0_2, hostOps0_3, hostOps0_4, hostOps0_5, List.flatten_cons, List.flatten_nil,
    List.append_nil, List.cons_append, List.nil_append]
  after_results_simp
  rfl

/-! ## Read at a row, for targets that are class numbers -/

/-- Clamping a class number into [0, 999] leaves it alone. -/
theorem clamp_id (w : BitVec 32) (hw : w.toNat < 1000) : IntOp.minsi 999#32 (IntOp.maxsi 0#32 w) = w := by
  have hi : w.toInt = w.toNat := toInt_eq_toNat_of_lt (by omega)
  have z0 : (0#32 : BitVec 32).toInt = 0 := by decide
  have z9 : (999#32 : BitVec 32).toInt = 999 := by decide
  have hmax : IntOp.maxsi 0#32 w = w := by
    unfold IntOp.maxsi
    rw [if_neg (by rw [BitVec.slt_iff_toInt_lt]; omega)]
  rw [hmax]
  unfold IntOp.minsi
  rw [if_neg (by rw [BitVec.slt_iff_toInt_lt]; omega)]

theorem clampT_apply (t : IVec S65536 32) (ht : InRange t) (r : Fin 65536) : clampT t (ix1 r) = t (ix1 r) := by
  show IntOp.minsi (broadcastInDim S65536 ![] bcast_S_S65536 (constantI S_ 32 999#32) (ix1 r))
    (IntOp.maxsi (broadcastInDim S65536 ![] bcast_S_S65536 (constantI S_ 32 0#32) (ix1 r)) (t (ix1 r))) = _
  rw [broadcastInDim_scalar_apply, broadcastInDim_scalar_apply]
  exact clamp_id _ (ht r)

/-- A vector laid as a column reads, at row `r`, the vector at `r`. -/
theorem shapeCast_col {α : Type} (x : S65536.Idx → α) (h : S65536.ShapeCasts S65536x1) (r : Fin 65536) :
    shapeCast S65536x1 x h (ix2 r 0) = x (ix1 r) :=
  shapeCast_apply x h (ix2 r 0) (ix1 r) (by
    rw [Shape.rowMajor_val_one, Shape.rowMajor_val_two]
    show r.val = r.val * 1 + 0
    omega)

/-- The kernel's target column at row `r` is the target itself. -/
theorem V19_apply (c : Dev nD) (ht : InRange (m ((c : Thread nD τ).loc main_arg0))) (r : Fin 65536) :
    (V m c main_v19 : S65536x1.Idx → BitVec 32) (ix2 r 0) = m ((c : Thread nD τ).loc main_arg0) (ix1 r) := by
  rw [V19, shapeCast_col, clampT_apply _ ht]

theorem startCol_apply (t : IVec S65536 32) (ht : InRange t) (r : Fin 65536) : startCol t (ixP r) = t (ix1 r) := by
  unfold startCol
  rw [bcast_col1, ofFin_eq_ix1]
  show Scalar.select (IntOp.cmpi .slt (clampT t (ix1 r)) (broadcastInDim S65536 ![] bcast_S_S65536 (constantI S_ 32 0#32) (ix1 r)))
    (IntOp.addi (clampT t (ix1 r)) (broadcastInDim S65536 ![] bcast_S_S65536 (constantI S_ 32 1000#32) (ix1 r))) (clampT t (ix1 r)) = _
  rw [clampT_apply t ht, broadcastInDim_scalar_apply]
  have h := ht r
  have : IntOp.cmpi .slt (t (ix1 r)) (constantI S_ 32 0#32 ix0) = 0#1 := by
    apply eq_zero_of_ne_one
    rw [IntOp.cmpi_slt]
    have := toInt_eq_toNat_of_lt (a := t (ix1 r)) (by omega)
    have z : (constantI S_ 32 0#32 ix0 : BitVec 32).toInt = 0 := by decide
    omega
  rw [this, select_zero]

/-- The kernel's weight column at row `r` is the clamped smoothing weight of the row's class. -/
theorem V27_apply (c : Dev nD) (ht : InRange (m ((c : Thread nD τ).loc main_arg0))) (r : Fin 65536) :
    (V m c main_v27 : S65536x1.Idx → EReal) (ix2 r 0)
      = Cert.ReferenceIdeal.Read.val_main_v0 (F := Ideal) (m ((c : Thread nD τ).loc main_arg1))
          (ix1 (cls (m ((c : Thread nD τ).loc main_arg0)) r)) := by
  rw [V27, shapeCast_col, ← ofFin_eq_ix1, gather_take _ rfl rfl rfl rfl _ _ r (by decide)]
  refine congrArg (Cert.ReferenceIdeal.Read.val_main_v0 (F := Ideal) (m ((c : Thread nD τ).loc main_arg1))) ?_
  rw [ofFin_eq_ix1]
  refine congrArg ix1 (Fin.ext ?_)
  show min (BitVec.toInt (startCol (m ((c : Thread nD τ).loc main_arg0)) (ixP r))).toNat (1000 - 1)
    = min (m ((c : Thread nD τ).loc main_arg0) (ix1 r)).toInt.toNat 999
  rw [startCol_apply _ ht]

end Cert.Smooth
-- ==== Proof.KernelValue.lean ====
/-
  The kernel's result array. Grid point `t` (of 64) handles array rows `1024·t … 1024·t + 1023`: its target and weight
  blocks are those rows of the two columns, its matrix block is the whole normalized matrix, and it writes back those
  rows of the result. Each written block is the common value read through the block, the 64 blocks cover the array,
  so the array ends as the common value.
-/
import proofs.«401739_j45973329936866_3_alg».proof.Proof.Gen.KernelIdeal.Value
import proofs.«401739_j45973329936866_3_alg».proof.Proof.BlockValue
import proofs.«401739_j45973329936866_3_alg».proof.Proof.KernelHost

set_option maxRecDepth 16384

noncomputable section

namespace Cert.Smooth

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the grid: the two columns and the result move down by one block of rows per
    point, the matrix stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The array row that row `p` of point `t`'s blocks is. -/
def rowAt (t : Fin cfg0.N) (p : Fin 1024) : Fin 65536 :=
  ⟨t.val * 1024 + p.val, by have h1 : t.val < 64 := t.isLt; have h2 := p.isLt; omega⟩

/-- Where the result's block at point `t` sits in the array. -/
theorem emb3 (t : Fin cfg0.N) (p : Fin 1024) (q : Fin 1000) :
    ((cfg0.win 3).blk t).view.emb (ix2 p q : S1024x1000.Idx) = ix2 (rowAt t p) q := by
  obtain ⟨e00, e01, e10, e11, e20, e21, e30, e31⟩ := idx_facts t
  funext a; apply Fin.ext
  match a with
  | ⟨0, _⟩ => show win0_3.index t (0 : Fin 2) * 1024 + 1 * p.val = t.val * 1024 + p.val; omega
  | ⟨1, _⟩ => show win0_3.index t (1 : Fin 2) * 1000 + 1 * q.val = q.val; omega

/-- WHAT POINT `t` WRITES BACK is the common value read through the point's block. -/
theorem flushed_eq (c : Dev nD) (ht : InRange (m ((c : Thread nD τ).loc main_arg0))) (t : Fin cfg0.N) :
    (dats m 0 c).flushed 3 t = ((cfg0.win 3).blk t).view.read (Elt Ideal)
      (smoothed (m ((c : Thread nD τ).loc main_arg0)) (m ((c : Thread nD τ).loc main_arg1)) (m ((c : Thread nD τ).loc main_arg2))) := by
  rw [Cert.KernelIdeal.Value.flushed3]
  unfold out0_3
  rw [View.canon_unit_zero hz]
  simp only [View.ld_unit_zero (S := S1024x1) hz, View.ld_unit_zero (S := S1000x1000) hz]
  obtain ⟨e00, e01, e10, e11, e20, e21, e30, e31⟩ := idx_facts t
  -- the target block: rows of the target column
  have h0 : ∀ p : Fin 1024, (iblk m c 0 t : S1024x1.Idx → BitVec 32) (ix2 p 0)
      = m ((c : Thread nD τ).loc main_arg0) (ix1 (rowAt t p)) := fun p => by
    show (V m c main_v19 : S65536x1.Idx → BitVec 32) (((cfg0.win 0).blk t).view.emb (ix2 p (0 : Fin 1) : S1024x1.Idx)) = _
    have he : ((cfg0.win 0).blk t).view.emb (ix2 p (0 : Fin 1) : S1024x1.Idx) = ix2 (rowAt t p) 0 := by
      funext a; apply Fin.ext
      match a with
      | ⟨0, _⟩ => show win0_0.index t (0 : Fin 2) * 1024 + 1 * p.val = t.val * 1024 + p.val; omega
      | ⟨1, _⟩ => show win0_0.index t (1 : Fin 2) * 1 + 1 * 0 = 0; omega
    rw [he, V19_apply m c ht]
  -- the weight block: rows of the weight column
  have h1 : ∀ p : Fin 1024, (iblk m c 1 t : S1024x1.Idx → EReal) (ix2 p 0)
      = Cert.ReferenceIdeal.Read.val_main_v0 (F := Ideal) (m ((c : Thread nD τ).loc main_arg1))
          (ix1 (cls (m ((c : Thread nD τ).loc main_arg0)) (rowAt t p))) := fun p => by
    show (V m c main_v27 : S65536x1.Idx → EReal) (((cfg0.win 1).blk t).view.emb (ix2 p (0 : Fin 1) : S1024x1.Idx)) = _
    have he : ((cfg0.win 1).blk t).view.emb (ix2 p (0 : Fin 1) : S1024x1.Idx) = ix2 (rowAt t p) 0 := by
      funext a; apply Fin.ext
      match a with
      | ⟨0, _⟩ => show win0_1.index t (0 : Fin 2) * 1024 + 1 * p.val = t.val * 1024 + p.val; omega
      | ⟨1, _⟩ => show win0_1.index t (1 : Fin 2) * 1 + 1 * 0 = 0; omega
    rw [he, V27_apply m c ht]
  -- the matrix block: the whole normalized matrix
  have h2 : ∀ i : S1000x1000.Idx, (iblk m c 2 t : S1000x1000.Idx → EReal) i
      = Cert.ReferenceIdeal.Read.val_main_v16 (F := Ideal) (m ((c : Thread nD τ).loc main_arg2)) i := fun i => by
    show (V m c main_v17 : S1000x1000.Idx → EReal) (((cfg0.win 2).blk t).view.emb i) = _
    have he : ((cfg0.win 2).blk t).view.emb i = i := by
      funext a; apply Fin.ext
      match a with
      | ⟨0, _⟩ => show win0_2.index t (0 : Fin 2) * 1000 + 1 * (i 0).val = (i 0).val; omega
      | ⟨1, _⟩ => show win0_2.index t (1 : Fin 2) * 1000 + 1 * (i 1).val = (i 1).val; omega
    rw [he, V17 m c]
  funext j
  have hj0 : (j 0).val < 1024 := (j 0).isLt
  have hj1 : (j 1).val < 1000 := (j 1).isLt
  have hjj : (j : S1024x1000.Idx) = ix2 ⟨(j 0).val, hj0⟩ ⟨(j 1).val, hj1⟩ := by
    funext a; match a with | ⟨0, _⟩ => rfl | ⟨1, _⟩ => rfl
  show k0_pay1 (F := Ideal) (iblk m c 0 t) (iblk m c 2 t) (iblk m c 1 t) j
    = smoothed (m ((c : Thread nD τ).loc main_arg0)) (m ((c : Thread nD τ).loc main_arg1)) (m ((c : Thread nD τ).loc main_arg2))
        (((cfg0.win 3).blk t).view.emb j)
  rw [hjj, emb3 t ⟨(j 0).val, hj0⟩ ⟨(j 1).val, hj1⟩]
  exact block_value (iblk m c 0 t) (iblk m c 1 t) (iblk m c 2 t) (m ((c : Thread nD τ).loc main_arg0))
    (m ((c : Thread nD τ).loc main_arg1)) (m ((c : Thread nD τ).loc main_arg2)) ht (rowAt t) h0 h1 h2
    ⟨(j 0).val, hj0⟩ ⟨(j 1).val, hj1⟩

/-- Every index of the result array is in the block of the point that handles its row. -/
theorem cover (i : S65536x1000.Idx) :
    ∃ t : Fin cfg0.N, (cfg0.win 3).flush t = true ∧ i ∈ ((cfg0.win 3).blk t).view.set := by
  have hi0 : (i 0).val < 65536 := (i 0).isLt
  have hi1 : (i 1).val < 1000 := (i 1).isLt
  let t : Fin cfg0.N := ⟨(i 0).val / 1024, by show (i 0).val / 1024 < 64; omega⟩
  refine ⟨t, flush0_3 t, ?_⟩
  have hi : i = ((cfg0.win 3).blk t).view.emb (ix2 (⟨(i 0).val % 1024, by omega⟩ : Fin 1024) (⟨(i 1).val, hi1⟩ : Fin 1000) : S1024x1000.Idx) := by
    rw [emb3]
    funext a; apply Fin.ext
    match a with
    | ⟨0, _⟩ => show (i 0).val = (i 0).val / 1024 * 1024 + (i 0).val % 1024; omega
    | ⟨1, _⟩ => rfl
  rw [hi]
  exact ((cfg0.win 3).blk t).view.emb_mem_set _

/-- THE RESULT ARRAY after the run is the common value. -/
theorem final (c : Dev nD) (ht : InRange (m ((c : Thread nD τ).loc main_arg0))) :
    (dats m 0 c).arrAt 3 cfg0.N
      = smoothed (m ((c : Thread nD τ).loc main_arg0)) (m ((c : Thread nD τ).loc main_arg1)) (m ((c : Thread nD τ).loc main_arg2)) :=
  (dats m 0 c).arrAt_eq_of_cover 3 _ (fun t _ => flushed_eq m c ht t) cover

/-- The kernel's run with the result array named: the common value of the arguments. -/
theorem kernel_run (ht : ∀ c : Dev nD, InRange (m ((c : Thread nD τ).loc main_arg0))) :
    θ_run defs (onTc (τ := τ) (main (F := Ideal))) ⟨m, fun _ => 0, ρ⟩ fun r => ∀ c : Dev nD,
      r.2.mem ((c : Thread nD τ).loc main_v28)
        = smoothed (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (ht c)), (h c).2⟩)
    (Cert.KernelIdeal.Value.run_blocks m ρ)

end Cert.Smooth
-- ==== Proof.lean ====
/- Label smoothing with learned weights: the kernel against its jnp reference, over the extended reals.

   Both programs first compute, with the same host operations, the clamped smoothing weights `w[c] = min(1/2, max(0, ω_s[c]))`
   and the normalized off-diagonal matrix `N = (max(ω_d, 0) · (1 − I)) / (row sums + ε)`. For a row with target class `c`
   the reference returns `w[c] · N[c, q] + (1 − w[c]) · [c = q]`. The kernel gathers `N`'s row as the product of the one-hot
   row with `N` and selects, on the one-hot bit, between `1 − w[c]` and `w[c] · N[c, q]`. The two agree because `N` has a
   zero diagonal (zero divided by a normalizer that is positive) and because a sum with a single non-zero term is that
   term; neither step needs the float inputs to be finite.

   The statement carries one added precondition: every target is a class number, `0 ≤ targets < 1000`. Outside that
   range the reference's gathers clamp or wrap the index while its one-hot row is all zeros, and the kernel clamps the
   target before both uses; the two then differ (at `targets[r] = 1000` and zero weights: 1 against 0 at column 999).

   The kernel's frames and the per-point form of its result are the generated modules'; the reference's run and its
   stages read at an index are generated as well. Written here: the precondition read back (PreDecode), a row gather read
   at an element (LibRowGather), the reference at an element (RefValue), the zero diagonal and the common value
   (NormDiag), the host arrays the kernel's windows read (KernelHost), the body's value at an element (KernelBody,
   BlockValue, over LibPlainDot), and the blocks assembled into the array (KernelValue). -/
import proofs.«401739_j45973329936866_3_alg».proof.Defs
import proofs.«401739_j45973329936866_3_alg».proof.Proof.Gen.Kernel
import proofs.«401739_j45973329936866_3_alg».proof.Proof.Gen.Kernel.Skeleton
import proofs.«401739_j45973329936866_3_alg».proof.Proof.Gen.Kernel.Launch
import proofs.«401739_j45973329936866_3_alg».proof.Proof.Gen.Kernel.Points
import proofs.«401739_j45973329936866_3_alg».proof.Proof.Gen.Kernel.Frame
import proofs.«401739_j45973329936866_3_alg».proof.Proof.Gen.KernelIdeal
import proofs.«401739_j45973329936866_3_alg».proof.Proof.Gen.KernelIdeal.Skeleton
import proofs.«401739_j45973329936866_3_alg».proof.Proof.Gen.KernelIdeal.Launch
import proofs.«401739_j45973329936866_3_alg».proof.Proof.Gen.KernelIdeal.Points
import proofs.«401739_j45973329936866_3_alg».proof.Proof.Gen.KernelIdeal.Frame
import proofs.«401739_j45973329936866_3_alg».proof.Proof.Gen.ReferenceIdeal
import proofs.«401739_j45973329936866_3_alg».proof.Proof.Gen.Pre_finite_inputs
import proofs.«401739_j45973329936866_3_alg».proof.Proof.Gen.KernelIdeal.Value
import proofs.«401739_j45973329936866_3_alg».proof.Proof.Gen.ReferenceIdeal.Run
import proofs.«401739_j45973329936866_3_alg».proof.Proof.Gen.ReferenceIdeal.Read
import proofs.«401739_j45973329936866_3_alg».proof.Proof.PreDecode
import proofs.«401739_j45973329936866_3_alg».proof.Proof.NormDiag
import proofs.«401739_j45973329936866_3_alg».proof.Proof.KernelValue
import Idealize.ShloMosaic.Adequacy
import Idealize.ShloMosaic.Init

noncomputable section

namespace Cert.Proof

open Idealize.ShloMosaic Idealize.SL.Sem Cert.Kernel

/-- The word-level kernel runs and leaves its arguments alone: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the common value `Cert.Smooth.smoothed` of the arguments: the kernel's array block
    by block, the reference's term stage by stage, for targets the precondition makes class numbers. -/
theorem algebraic : Cert.algebraic_KernelIdeal_ReferenceIdeal := by
  intro m ρ m' ρ' hpre hagree
  have ht : ∀ c : Dev Cert.KernelIdeal.nD,
      Cert.Smooth.InRange (m ((c.tc : Thread Cert.KernelIdeal.nD Cert.KernelIdeal.τ).loc Cert.KernelIdeal.main_arg0)) :=
    fun c => Cert.Smooth.inRange_of_pre _ _ _ (hpre c)
  refine ⟨fun c => Cert.Smooth.smoothed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Smooth.kernel_run m ρ ht, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v40_eq, (hagree c).1, (hagree c).2.1, (hagree c).2.2]
  exact Cert.Smooth.ref_eq_smoothed _ _ _ (ht c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
